-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S128 .f32) (main_arg6 : FVec F S128x10 .f32) (main_arg7 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg6
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x10 .f32) (main_arg7 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S2000x128 : Shape := ⟨2, ![2000, 128]⟩
abbrev S800000x128 : Shape := ⟨2, ![800000, 128]⟩
abbrev S50000x1 : Shape := ⟨2, ![50000, 1]⟩
abbrev S1x128 : Shape := ⟨2, ![1, 128]⟩
abbrev S2000x1 : Shape := ⟨2, ![2000, 1]⟩
abbrev S50000x10 : Shape := ⟨2, ![50000, 10]⟩

abbrev nBuf : Space → Nat
  | .hbm => 112
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x10, .f32⟩
  | .hbm, ⟨7, _⟩ => ⟨S10, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000, .f32⟩
  | .hbm, ⟨44, _⟩ => ⟨S800000, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S800000x1, .f32⟩
  | .hbm, ⟨55, _⟩ => ⟨S800000x128, .f32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S50000x1, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000, .f32⟩
  | .hbm, ⟨83, _⟩ => ⟨S800000, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x128, .f32⟩
  | .hbm, ⟨93, _⟩ => ⟨S800000x1, .f32⟩
  | .hbm, ⟨94, _⟩ => ⟨S800000x128, .f32⟩
  | .hbm, ⟨95, _⟩ => ⟨S800000x128, .f32⟩
  | .hbm, ⟨96, _⟩ => ⟨S_, .f32⟩
  | .hbm, ⟨97, _⟩ => ⟨S50000x128, .f32⟩
  | .hbm, ⟨98, _⟩ => ⟨S800000x1, .i32⟩
  | .hbm, ⟨99, _⟩ => ⟨S50000x128, .f32⟩
  | .hbm, ⟨100, _⟩ => ⟨S50000x1, .f32⟩
  | .hbm, ⟨101, _⟩ => ⟨S1x128, .f32⟩
  | .hbm, ⟨102, _⟩ => ⟨S50000x128, .f32⟩
  | .hbm, ⟨103, _⟩ => ⟨S_, .i32⟩
  | .hbm, ⟨104, _⟩ => ⟨S_, .f32⟩
  | .hbm, ⟨105, _⟩ => ⟨S128x128, .f32⟩
  | .hbm, ⟨106, _⟩ => ⟨S_, .i32⟩
  | .hbm, ⟨107, _⟩ => ⟨S_, .f32⟩
  | .hbm, ⟨108, _⟩ => ⟨S128, .f32⟩
  | .hbm, ⟨109, _⟩ => ⟨S1x128, .f32⟩
  | .hbm, ⟨110, _⟩ => ⟨S50000x128, .f32⟩
  | .hbm, ⟨111, _⟩ => ⟨S50000x10, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_15 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_16 : Ref sig .tc := ⟨.hbm, 103, rfl⟩
abbrev main_call0_v0 : Ref sig .tc := ⟨.hbm, 104, rfl⟩
abbrev main_v77 : Ref sig .tc := ⟨.hbm, 105, rfl⟩
abbrev main_c_17 : Ref sig .tc := ⟨.hbm, 106, rfl⟩
abbrev main_call1_v0 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  pads_S128x10_S128x128_000_01180 : S128x10.Pads (![0, 0] : Fin 2 → Nat) ![0, 118] ![0, 0] S128x128
  h_S_ : 0 < S_.numel
  pads_S10_S128_01180 : S10.Pads (![0] : Fin 1 → Nat) ![118] ![0] S128
  shapeCasts_S128x128_S128x128 : S128x128.ShapeCasts S128x128
  slices_S50000x128_S50000x10_0_0 : S50000x128.Slices ![0, 0] S50000x10
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v73) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v74) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v76) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v77) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v79) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v80) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x10 : Shape := ⟨2, ![50000, 10]⟩
abbrev S1x10 : Shape := ⟨2, ![1, 10]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x10, .f32⟩
  | 7 => ⟨S10, .f32⟩
  | 8 => ⟨S1x800000, .i32⟩
  | 9 => ⟨S800000, .i32⟩
  | 10 => ⟨S1x800000, .i32⟩
  | 11 => ⟨S800000, .i32⟩
  | 12 => ⟨S50000x128, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S800000x1, .f32⟩
  | 52 => ⟨S800000x128, .f32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S_, .f32⟩
  | 59 => ⟨S50000, .f32⟩
  | 60 => ⟨S50000, .f32⟩
  | 61 => ⟨S50000x1, .f32⟩
  | 62 => ⟨S50000x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S_, .f32⟩
  | 73 => ⟨S800000, .f32⟩
  | 74 => ⟨S_, .f32⟩
  | 75 => ⟨S50000, .f32⟩
  | 76 => ⟨S800000x1, .i32⟩
  | 77 => ⟨S50000, .f32⟩
  | 78 => ⟨S_, .f32⟩
  | 79 => ⟨S50000, .f32⟩
  | 80 => ⟨S50000, .f32⟩
  | 81 => ⟨S50000, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000, .f32⟩
  | 100 => ⟨S800000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x128, .f32⟩
  | 110 => ⟨S800000x1, .f32⟩
  | 111 => ⟨S800000x128, .f32⟩
  | 112 => ⟨S800000x128, .f32⟩
  | 113 => ⟨S_, .f32⟩
  | 114 => ⟨S50000x128, .f32⟩
  | 115 => ⟨S800000x1, .i32⟩
  | 116 => ⟨S50000x128, .f32⟩
  | 117 => ⟨S_, .f32⟩
  | 118 => ⟨S50000, .f32⟩
  | 119 => ⟨S50000, .f32⟩
  | 120 => ⟨S50000x1, .f32⟩
  | 121 => ⟨S50000x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S50000x10, .f32⟩
  | 3 => ⟨S1x10, .f32⟩
  | 4 => ⟨S50000x10, .f32⟩
  | 5 => ⟨S50000x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call0_cst : Ref sig .tc := ⟨.hbm, 68, rfl⟩
abbrev main_call0_v0 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_16 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_18 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_19 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_call1_cst : Ref sig .tc := ⟨.hbm, 127, rfl⟩
abbrev main_call1_v0 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x10_S50000x10_1_0_0_1_n_n_wf : DotDims.WF S50000x128 S128x10 S50000x10 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf

class Facts : Prop extends Facts₀ where

variable [Facts]
-- ==== Proof.Spec.lean ====
/-
  The three dense pieces of a two-layer graph convolution, each as ONE function of whole arrays, entry by entry, over the
  literal shapes: 50000 nodes, 128 channels, 10 classes.

  • `product x w`: the dense projection, entry `(r, q)` the sum over `k` of `x (r, k) · w (k, q)` on the extended reals.
  • `combine agg h d b`: the self-loop term, the bias and the rectifier on top of an aggregated message array: entry
    `(r, q)` is `max (agg (r, q) + h (r, q) · d (r, 0) + b (0, q)) 0`, with `d` a column (one number per node) and `b` a row
    (one number per channel). It uses only pointwise operations, so it is stated for any float instance.
  • `classifyPadded h w b`: the classifier on operands padded to 128 columns: `(r, q) ↦ ∑ k, h (r, k) · w (k, q) + b (0, q)`.
-/
import Idealize.ShloMosaic.PureOps.Ideal
import Idealize.ShloMosaic.Lib.ValueIdx

noncomputable section

open scoped BigOperators
open Idealize.ShloMosaic Idealize.ShloMosaic.ValueIdx

namespace Cert.Gcn

/-- nodes × channels -/
abbrev SNC : Shape := ⟨2, ![50000, 128]⟩
/-- channels × channels -/
abbrev SCC : Shape := ⟨2, ![128, 128]⟩
/-- a column: one entry per node -/
abbrev SN1 : Shape := ⟨2, ![50000, 1]⟩
/-- a row: one entry per channel -/
abbrev S1C : Shape := ⟨2, ![1, 128]⟩

/-- The node (row) of an entry, as a number below 50000. -/
abbrev node (i : SNC.Idx) : Fin 50000 := ⟨(i 0).val, (i 0).isLt⟩
/-- The channel (column) of an entry, as a number below 128. -/
abbrev chan (i : SNC.Idx) : Fin 128 := ⟨(i 1).val, (i 1).isLt⟩

/-- The dense projection `x · w`. -/
def product (x : FVec Ideal SNC .f32) (w : FVec Ideal SCC .f32) : FVec Ideal SNC .f32 :=
  fun i => ∑ k : Fin 128, x (ix2 (node i) k) * w (ix2 k (chan i))

/-- Aggregated messages plus the self-loop term `h · d` plus the bias, rectified. -/
def combine {F : FTy → Type} [FloatOps F] (agg h : FVec F SNC .f32) (d : FVec F SN1 .f32) (b : FVec F S1C .f32) : FVec F SNC .f32 :=
  fun i => FloatOps.maximumf
    (FloatOps.addf (FloatOps.addf (agg i) (FloatOps.mulf (h i) (d (ix2 (node i) (0 : Fin 1))))) (b (ix2 (0 : Fin 1) (chan i))))
    (Scalar.ofBits .f32 0x00000000#32)

/-- The classifier on operands padded to 128 columns. -/
def classifyPadded (h : FVec Ideal SNC .f32) (w : FVec Ideal SCC .f32) (b : FVec Ideal S1C .f32) : FVec Ideal SNC .f32 :=
  fun i => (∑ k : Fin 128, h (ix2 (node i) k) * w (ix2 k (chan i))) + b (ix2 (0 : Fin 1) (chan i))

end Cert.Gcn

end
-- ==== Proof.Fold.lean ====
/-
  The buffer contents at the boundaries of @main's segments form a fold from the launch memory: a stretch of host
  operations changes only the buffers its operations write, and a kernel region only its output arrays. So a buffer
  that nothing in between writes holds, where it is read, what it held where it was last written: the argument arrays
  hold their launch contents at every boundary up to their use, the edge lists and the degree terms computed in the
  first stretch are still there when the second layer's stretch reads them, and each region's result reaches the next
  reader unchanged. One lemma per buffer and per stretch of boundaries it crosses.
-/
import proofs.«169400_j7559142441491_1_alg».proof.Proof.Gen.KernelIdeal.Frame

set_option maxRecDepth 16384

noncomputable section

open Idealize.ShloMosaic Idealize.ShloMosaic.TcCoe Idealize.SL.Sem

namespace Cert.KernelIdeal.Fold

open Cert.KernelIdeal Cert.KernelIdeal.Gen

/-- A buffer none of a stretch's operations writes keeps its contents across the stretch: every operation's written
    buffer is another reference. -/
macro "stretch_keeps " ops:ident : tactic => `(tactic|
  (refine StableHlo.after_of_forall_not_mem _ _ (List.forall_iff_forall_mem.mp ?_)
   simp only [$ops:ident, List.flatten_cons, List.flatten_nil, List.append_nil, List.cons_append,
     List.nil_append, List.Forall, StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

variable {F : FTy → Type} [FloatOps F]
variable (m : (ℓ : Loc nD τ sig) → Buf (Elt F) ℓ) (ρ : Dev nD → PrngReg)

/-! ## The argument arrays where they are read -/

/-- The features, where the first projection reads them. -/
theorem arg0_at1 (c : Dev nD) : W1 m ρ c (Proc.devRef .tc main_arg0) = m ((c : Thread nD τ).loc main_arg0) :=
  calc W1 m ρ c (Proc.devRef .tc main_arg0)
    _ = W0 m ρ c (Proc.devRef .tc main_arg0) := by stretch_keeps hostOps0
    _ = m ((c : Thread nD τ).loc main_arg0) := rfl

/-- The first layer's weights, where the first projection reads them. -/
theorem arg2_at1 (c : Dev nD) : W1 m ρ c (Proc.devRef .tc main_arg2) = m ((c : Thread nD τ).loc main_arg2) :=
  calc W1 m ρ c (Proc.devRef .tc main_arg2)
    _ = W0 m ρ c (Proc.devRef .tc main_arg2) := by stretch_keeps hostOps0
    _ = m ((c : Thread nD τ).loc main_arg2) := rfl

/-- The first layer's bias, where the stretch before the first combine reshapes it. -/
theorem arg3_at2 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by stretch_keeps hostOps0
    _ = m ((c : Thread nD τ).loc main_arg3) := rfl

/-- The second layer's weights, where the second projection reads them. -/
theorem arg4_at4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by stretch_keeps hostOps1
    _ = W1 m ρ c (Proc.devRef .tc main_arg4) := W2_of_ne m ρ c main_arg4 (by decide)
    _ = W0 m ρ c (Proc.devRef .tc main_arg4) := by stretch_keeps hostOps0
    _ = m ((c : Thread nD τ).loc main_arg4) := rfl

/-- The second layer's bias, where the stretch before the second combine reshapes it. -/
theorem arg5_at5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := by stretch_keeps hostOps1
    _ = W1 m ρ c (Proc.devRef .tc main_arg5) := W2_of_ne m ρ c main_arg5 (by decide)
    _ = W0 m ρ c (Proc.devRef .tc main_arg5) := by stretch_keeps hostOps0
    _ = m ((c : Thread nD τ).loc main_arg5) := rfl

/-- The classifier's weights, at the second combine's exit, from where the padding stretches read them. -/
theorem arg6_at7 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := by stretch_keeps hostOps3
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := by stretch_keeps hostOps1
    _ = W1 m ρ c (Proc.devRef .tc main_arg6) := W2_of_ne m ρ c main_arg6 (by decide)
    _ = W0 m ρ c (Proc.devRef .tc main_arg6) := by stretch_keeps hostOps0
    _ = m ((c : Thread nD τ).loc main_arg6) := rfl

/-- The classifier's bias, at the second combine's exit, from where the padding stretches read it. -/
theorem arg7_at7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := by stretch_keeps hostOps3
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := by stretch_keeps hostOps1
    _ = W1 m ρ c (Proc.devRef .tc main_arg7) := W2_of_ne m ρ c main_arg7 (by decide)
    _ = W0 m ρ c (Proc.devRef .tc main_arg7) := by stretch_keeps hostOps0
    _ = m ((c : Thread nD τ).loc main_arg7) := rfl

/-! ## The edge lists and the degree terms of the first stretch, where the two message stretches read them -/

/-- The edges' sources, where the first layer's messages are gathered. -/
theorem src_at2 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

/-- The edges' targets, where the first layer's messages are summed. -/
theorem dst_at2 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

/-- The inverse square roots of the degrees, for the first layer's edge weights. -/
theorem dinv_at2 (c : Dev nD) : W2 m ρ c (Proc.devRef .tc main_v10) = W1 m ρ c (Proc.devRef .tc main_v10) :=
  calc W2 m ρ c (Proc.devRef .tc main_v10)
    _ = W1 m ρ c (Proc.devRef .tc main_v10) := W2_of_ne m ρ c main_v10 (by decide)

/-- The inverse degrees, for the first layer's self-loop term. -/
theorem invdeg_at2 (c : Dev nD) : W2 m ρ c (Proc.devRef .tc main_v12) = W1 m ρ c (Proc.devRef .tc main_v12) :=
  calc W2 m ρ c (Proc.devRef .tc main_v12)
    _ = W1 m ρ c (Proc.devRef .tc main_v12) := W2_of_ne m ρ c main_v12 (by decide)

/-- The edges' sources, where the second layer's messages are gathered. -/
theorem src_at5 (c : Dev nD) : W5 m ρ c (Proc.devRef .tc main_v1) = W1 m ρ c (Proc.devRef .tc main_v1) :=
  calc W5 m ρ c (Proc.devRef .tc main_v1)
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := by stretch_keeps hostOps1
    _ = W1 m ρ c (Proc.devRef .tc main_v1) := W2_of_ne m ρ c main_v1 (by decide)

/-- The edges' targets, where the second layer's messages are summed. -/
theorem dst_at5 (c : Dev nD) : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := by stretch_keeps hostOps1
    _ = W1 m ρ c (Proc.devRef .tc main_v3) := W2_of_ne m ρ c main_v3 (by decide)

/-- The inverse square roots of the degrees, for the second layer's edge weights. -/
theorem dinv_at5 (c : Dev nD) : W5 m ρ c (Proc.devRef .tc main_v10) = W1 m ρ c (Proc.devRef .tc main_v10) :=
  calc W5 m ρ c (Proc.devRef .tc main_v10)
    _ = W4 m ρ c (Proc.devRef .tc main_v10) := W5_of_ne m ρ c main_v10 (by decide)
    _ = W3 m ρ c (Proc.devRef .tc main_v10) := W4_of_ne m ρ c main_v10 (by decide)
    _ = W2 m ρ c (Proc.devRef .tc main_v10) := by stretch_keeps hostOps1
    _ = W1 m ρ c (Proc.devRef .tc main_v10) := W2_of_ne m ρ c main_v10 (by decide)

/-- The inverse degrees, for the second layer's self-loop term. -/
theorem invdeg_at5 (c : Dev nD) : W5 m ρ c (Proc.devRef .tc main_v12) = W1 m ρ c (Proc.devRef .tc main_v12) :=
  calc W5 m ρ c (Proc.devRef .tc main_v12)
    _ = W4 m ρ c (Proc.devRef .tc main_v12) := W5_of_ne m ρ c main_v12 (by decide)
    _ = W3 m ρ c (Proc.devRef .tc main_v12) := W4_of_ne m ρ c main_v12 (by decide)
    _ = W2 m ρ c (Proc.devRef .tc main_v12) := by stretch_keeps hostOps1
    _ = W1 m ρ c (Proc.devRef .tc main_v12) := W2_of_ne m ρ c main_v12 (by decide)

/-! ## Each region's result, where the next reader finds it -/

/-- The first projection, where the first combine reads it (the message stretch in between only reads it). -/
theorem proj1_at3 (c : Dev nD) : W3 m ρ c (Proc.devRef .tc main_v13) = W2 m ρ c (Proc.devRef .tc main_v13) :=
  calc W3 m ρ c (Proc.devRef .tc main_v13)
    _ = W2 m ρ c (Proc.devRef .tc main_v13) := by stretch_keeps hostOps1

/-- The second projection, where the second combine reads it. -/
theorem proj2_at6 (c : Dev nD) : W6 m ρ c (Proc.devRef .tc main_v45) = W5 m ρ c (Proc.devRef .tc main_v45) :=
  calc W6 m ρ c (Proc.devRef .tc main_v45)
    _ = W5 m ρ c (Proc.devRef .tc main_v45) := by stretch_keeps hostOps3

/-- The second layer's output, where the classifier reads it (the padding stretches in between do not touch it). -/
theorem hidden_at12 (c : Dev nD) : W12 m ρ c (Proc.devRef .tc main_v76) = W7 m ρ c (Proc.devRef .tc main_v76) :=
  calc W12 m ρ c (Proc.devRef .tc main_v76)
    _ = W11 m ρ c (Proc.devRef .tc main_v76) := by stretch_keeps hostOps4_4
    _ = W10 m ρ c (Proc.devRef .tc main_v76) := by stretch_keeps hostOps4_3
    _ = W9 m ρ c (Proc.devRef .tc main_v76) := by stretch_keeps hostOps4_2
    _ = W8 m ρ c (Proc.devRef .tc main_v76) := by stretch_keeps hostOps4_1
    _ = W7 m ρ c (Proc.devRef .tc main_v76) := by stretch_keeps hostOps4

end Cert.KernelIdeal.Fold

end
-- ==== Proof.BlockProduct.lean ====
/-
  A [2000,128] block times a [128,128] matrix on the matrix unit, into a zero accumulator, read at one entry: at the
  extended reals it is the plain sum over the contracted axis, `(p, q) ↦ ∑ k, a (p, k) · b (k, q)`. The dimension
  numbers contract the left operand's axis 1 with the right operand's axis 0 and keep the left's axis 0 and the right's
  axis 1, so the contraction index is one coordinate `k < 128`.
-/
import proofs.«169400_j7559142441491_1_alg».proof.Proof.Gen.KernelIdeal
import Idealize.ShloMosaic.Lib.ValueIdx
import Idealize.ShloMosaic.PureOps.Ideal.Laws

noncomputable section

open Idealize.ShloMosaic Idealize.ShloMosaic.TcCoe Idealize.ShloMosaic.ValueIdx

namespace Cert.KernelIdeal.BlockProduct

open Cert.KernelIdeal Cert.KernelIdeal.Gen

theorem lhs_axis0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_axis1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_axis0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_axis1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry `(p, q)` of the product of a [2000,128] block with a [128,128] matrix into a zero accumulator: the sum over
    the contracted axis `k` of the block's `(p, k)` times the matrix's `(k, q)`. -/
theorem product_apply (a : FVec Ideal S2000x128 .f32) (b : FVec Ideal S128x128 .f32) (p : Fin 2000) (q : Fin 128) :
    FloatOps.matmul dot_S2000x128_S128x128_S2000x128_1_0_0_1_n_n none a b (constant S2000x128 .f32 0x00000000#32) (ix2 p q)
      = ∑ k : Fin 128, a (ix2 p k) * b (ix2 k q) := by
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun ax => Fin.ext (by
    match ax with
    | ⟨0, _⟩ => exact lhs_axis0 _ _
    | ⟨1, _⟩ => exact (lhs_axis1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun ax => Fin.ext (by
    match ax with
    | ⟨0, _⟩ => exact (rhs_axis0 _ _).trans hk
    | ⟨1, _⟩ => exact rhs_axis1 _ _)
  rw [el, er]

end Cert.KernelIdeal.BlockProduct

end
-- ==== Proof.Region0.lean ====
/-
  A dense projection region, `h = x · W`, as ONE function of the arrays the region is entered with.

  The grid has 25 points; point `t` reads rows `2000 t … 2000 t + 1999` of the left operand (all 128 columns), the whole
  128 × 128 right operand, and writes rows `2000 t … 2000 t + 1999` of the result. At the extended reals the two
  narrowings to bf16 are identities and the matrix unit's product into a zero accumulator is the plain sum over the
  contracted axis, so entry `(p, q)` of a block is `∑ k, x (p, k) · W (k, q)` of the block's rows; a block's row `p` is
  row `2000 t + p` of the array, and the 25 row blocks tile the 50000 rows. Hence the result array, entry by entry, is
  `∑ k, x (r, k) · W (k, q)`.
-/
import proofs.«169400_j7559142441491_1_alg».proof.Proof.Gen.KernelIdeal.Frame
import proofs.«169400_j7559142441491_1_alg».proof.Proof.Spec
import proofs.«169400_j7559142441491_1_alg».proof.Proof.BlockProduct
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

/-! ## The body at an entry -/

/-- The body's value: the narrowings are identities at the extended reals, so it is that product of the two loaded
    blocks. -/
theorem body_apply (x0 : Vec Ideal S2000x128 .f32) (x1 : Vec Ideal S128x128 .f32) (p : Fin 2000) (q : Fin 128) :
    (k0_pay1 (F := Ideal) x0 x1) (ix2 p q) = ∑ k : Fin 128, x0 (ix2 p k) * x1 (ix2 k q) := by
  unfold k0_pay1
  try simp only [shapeCast_self]
  exact BlockProduct.product_apply x0 x1 p q

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The left operand as the region finds it, at its literal type. -/
abbrev lhsArr (c : Dev nD) : FVec Ideal S50000x128 .f32 := V c main_arg0
/-- The right operand as the region finds it, at its literal type. -/
abbrev rhsArr (c : Dev nD) : FVec Ideal S128x128 .f32 := V c main_arg2

/-- The printed index maps over the grid: the left operand's and the result's row blocks are block `t`, the right
    operand's block is always the whole matrix. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left block at point `t`, entry `(p, k)`, is the array's entry `(2000 t + p, k)`. -/
theorem lhs_block (c : Dev nD) (t : Fin cfg0.N) (p : Fin 2000) (k : Fin 128) (r : Fin 50000) (hr : r.val = t.val * 2000 + p.val) :
    iblk0 V c 0 t (ix2 p k) = lhsArr V c (ix2 r k) := by
  obtain ⟨e0, e1, e2, e3, e4, e5⟩ := index_facts t
  show V c main_arg0 (((cfg0.win 0).blk t).view.emb (ix2 p k)) = V c main_arg0 (ix2 r k)
  refine congrArg _ (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- The right block at any point is the whole matrix. -/
theorem rhs_block (c : Dev nD) (t : Fin cfg0.N) (k q : Fin 128) :
    iblk0 V c 1 t (ix2 k q) = rhsArr V c (ix2 k q) := by
  obtain ⟨e0, e1, e2, e3, e4, e5⟩ := index_facts t
  show V c main_arg2 (((cfg0.win 1).blk t).view.emb (ix2 k q)) = V c main_arg2 (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- What point `t` writes back is block `t` of the product of the two arrays. -/
theorem flushed_eq (c : Dev nD) (t : Fin cfg0.N) :
    (dat0 V c).flushed 2 t = ((cfg0.win 2).blk t).view.read (Elt Ideal) (Cert.Gcn.product (lhsArr V c) (rhsArr V c)) := by
  show (cfg0.win 2).cut (grid0.coords t) ((dat0 V c).after 2 t) = _
  rw [after0_2]
  unfold out0_2
  rw [View.canon_unit_zero origin]
  simp only [View.ld_unit_zero (S := S2000x128) origin, View.ld_unit_zero (S := S128x128) origin]
  obtain ⟨e0, e1, e2, e3, e4, e5⟩ := index_facts t
  funext j
  obtain ⟨p, q, rfl⟩ : ∃ (p : Fin 2000) (q : Fin 128), j = ix2 p q := ⟨j 0, j 1, eq_ix2 j⟩
  refine (body_apply _ _ p q).trans ?_
  have hp : p.val < 2000 := p.isLt
  show _ = Cert.Gcn.product (lhsArr V c) (rhsArr V c) (((cfg0.win 2).blk t).view.emb (ix2 p q))
  unfold Cert.Gcn.product
  refine Finset.sum_congr rfl fun k _ => ?_
  have hn : (Cert.Gcn.node (((cfg0.win 2).blk t).view.emb (ix2 p q))).val = t.val * 2000 + p.val := by
    show win0_2.index t (0 : Fin 2) * 2000 + 1 * p.val = _; omega
  have hc : Cert.Gcn.chan (((cfg0.win 2).blk t).view.emb (ix2 p q)) = q := Fin.ext (by
    show win0_2.index t (1 : Fin 2) * 128 + 1 * q.val = q.val; omega)
  rw [lhs_block V c t p k _ hn, rhs_block V c t k q, hc]

/-- An index of the result array is in point `t`'s block iff each coordinate is in the block's range on its axis. -/
theorem mem_block (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v13).slice (win0_2.rect t)).set ↔ _
  rw [View.set_slice_whole, Rect.mem_set_unit]
  exact Iff.rfl

/-- Every row lies in one of the 25 row blocks: row `r` in block `r / 2000`. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  obtain ⟨e0, e1, e2, e3, e4, e5⟩ := index_facts ⟨(i 0).val / 2000, by rw [hN]; omega⟩
  refine ⟨⟨(i 0).val / 2000, by rw [hN]; omega⟩, flush0_2 _, ?_⟩
  rw [mem_block]
  intro a
  match a with
  | ⟨0, _⟩ =>
    show win0_2.index ⟨(i 0).val / 2000, _⟩ (0 : Fin 2) * 2000 ≤ (i 0).val ∧ (i 0).val < win0_2.index ⟨(i 0).val / 2000, _⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, _⟩ (1 : Fin 2) * 128 ≤ (i 1).val ∧ (i 1).val < win0_2.index ⟨(i 0).val / 2000, _⟩ (1 : Fin 2) * 128 + 128
    rw [e5]; omega

/-- The result array after the region: the product of the two arrays it was entered with. -/
theorem final (c : Dev nD) : (dat0 V c).arrAt 2 cfg0.N = Cert.Gcn.product (V c main_arg0) (V c main_arg2) :=
  (dat0 V c).arrAt_eq_of_cover 2 (Cert.Gcn.product (lhsArr V c) (rhsArr V c)) (fun t _ => flushed_eq V c t) covered

end Cert.KernelIdeal.Region0

end
-- ==== Proof.LibKeepdims.lean ====
/-
  A column kept as a trailing unit axis, read at coordinates: the three layout steps of a row reduction with the reduced
  axis kept (`sum(axis=1, keepdims=True)`) followed by a broadcast back along the rows.

  • an `[a]` vector viewed as an `[a, 1]` column reads, at `(i, u)`, the vector at `i`;
  • an `[a, 1]` column broadcast to `[a, b]` reads, at `(p, c)`, the column at `(p, 0)`;
  • a sum of an `[a, b]` array along its second axis reads, at `i`, the sum over `n` of the array at `(i, n)`.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals, the sum of an `[a, b]` array along its second axis (started from the zero word) reads, at row
    `i`, the sum over `n` of the entries `(i, n)`. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (i : Fin a) :
    multiReduction (F := Ideal) .add [1] ⟨1, ![a]⟩ src 0x00000000#32 h hφ hacc (ix1 i) = ∑ n : Fin b, src (ix2 i n) :=
  (Ideal.multiReduction_add_single src 0x00000000#32 h hφ hacc (ix1 i)).trans
    (Finset.sum_congr rfl fun k _ => congrArg src (funext fun ax => Fin.ext (by
      match ax with
      | ⟨0, _⟩ => rfl
      | ⟨1, _⟩ => rfl)))

end Cert.Keepdims
-- ==== Proof.Region1.lean ====
/-
  This region, a "combine" step of the graph convolution, as ONE function of the arrays the region is entered with.

  The grid has 25 points; point `t` reads rows `2000 t … 2000 t + 1999` of the aggregated messages and of the projection (all
  128 columns of each), the same rows of the inverse-degree column, the whole bias row, and writes rows
  `2000 t … 2000 t + 1999` of the result. The body is pointwise: the casts to the same shape are identities, the column is
  spread along the 128 channels and the row along the 2000 block rows, so entry `(p, q)` of a block is
  `max (agg (p, q) + h (p, q) · d (p, 0) + b (0, q)) 0` of the block's rows; a block's row `p` is row `2000 t + p` of the
  array, and the 25 row blocks tile the 50000 rows. Hence the result array, entry by entry, is
  `max (agg (r, q) + h (r, q) · d (r, 0) + b (0, q)) 0`, in any float instance (no law of the arithmetic is used).
-/
import proofs.«169400_j7559142441491_1_alg».proof.Proof.Gen.KernelIdeal.Frame
import proofs.«169400_j7559142441491_1_alg».proof.Proof.Spec
import proofs.«169400_j7559142441491_1_alg».proof.Proof.LibKeepdims
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable {F : FTy → Type} [FloatOps F]

/-! ## The body at an entry -/

/-- The body's value at entry `(p, q)`: the same-shape casts are identities, the column spread over the channels reads its
    row `p`, the row spread over the block rows reads its channel `q`, and the arithmetic is entry by entry. -/
theorem body_apply (x0 x1 : Vec F S2000x128 .f32) (x2 : Vec F S2000x1 .f32) (x3 : Vec F S1x128 .f32) (p : Fin 2000) (q : Fin 128) :
    (k1_pay1 (F := F) x0 x1 x2 x3) (ix2 p q)
      = FloatOps.maximumf
          (FloatOps.addf (FloatOps.addf (x0 (ix2 p q)) (FloatOps.mulf (x1 (ix2 p q)) (x2 (ix2 p (0 : Fin 1))))) (x3 (ix2 (0 : Fin 1) q)))
          (Scalar.ofBits .f32 0x00000000#32) := by
  unfold k1_pay1
  simp only [shapeCast_self]
  show FloatOps.maximumf
      (FloatOps.addf (FloatOps.addf (x0 (ix2 p q)) (FloatOps.mulf (x1 (ix2 p q)) (broadcastTo S2000x128 x2 _ (ix2 p q))))
        (broadcastTo S2000x128 x3 _ (ix2 p q)))
      (Scalar.ofBits .f32 0x00000000#32) = _
  rw [Cert.Keepdims.broadcastTo_a1_ab_apply x2 _ p q, broadcastTo_1b_ab_apply x3 _ p q]

/-! ## From the blocks to the arrays -/

variable (V : (c : Dev nD) → (b : Ref sig .tc) → Buf (Elt F) ((c : Thread nD τ).loc b))

theorem origin : (![0, 0] : Fin 2 → Nat) = fun _ => 0 := funext fun a => by fin_cases a <;> rfl

/-- The aggregated messages as the region finds them, at their literal type. -/
abbrev aggArr (c : Dev nD) : FVec F S50000x128 .f32 := V c main_v41
/-- The projection as the region finds it, at its literal type. -/
abbrev projArr (c : Dev nD) : FVec F S50000x128 .f32 := V c main_v13
/-- The inverse degrees, a column, as the region finds them, at their literal type. -/
abbrev degArr (c : Dev nD) : FVec F S50000x1 .f32 := V c main_v42
/-- The bias, a row, as the region finds it, at its literal type. -/
abbrev biasArr (c : Dev nD) : FVec F S1x128 .f32 := V c main_v43

/-- The printed index maps over the grid: the row blocks of the messages, of the projection, of the column and of the
    result are block `t`; the bias row's block is always the whole row. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The messages' block at point `t`, entry `(p, q)`, is the array's entry `(2000 t + p, q)`. -/
theorem agg_block (c : Dev nD) (t : Fin cfg1.N) (p : Fin 2000) (q : Fin 128) (r : Fin 50000) (hr : r.val = t.val * 2000 + p.val) :
    iblk1 V c 0 t (ix2 p q) = aggArr V c (ix2 r q) := by
  obtain ⟨e0, e1, e2, e3, e4, e5, e6, e7, e8, e9⟩ := index_facts t
  show V c main_v41 (((cfg1.win 0).blk t).view.emb (ix2 p q)) = V c main_v41 (ix2 r q)
  refine congrArg _ (funext fun a => Fin.ext ?_)
  match a with
  | ⟨0, _⟩ => show win1_0.index t (0 : Fin 2) * 2000 + 1 * p.val = r.val; omega
  | ⟨1, _⟩ => show win1_0.index t (1 : Fin 2) * 128 + 1 * q.val = q.val; omega

/-- The projection's block at point `t`, entry `(p, q)`, is the array's entry `(2000 t + p, q)`. -/
theorem proj_block (c : Dev nD) (t : Fin cfg1.N) (p : Fin 2000) (q : Fin 128) (r : Fin 50000) (hr : r.val = t.val * 2000 + p.val) :
    iblk1 V c 1 t (ix2 p q) = projArr V c (ix2 r q) := by
  obtain ⟨e0, e1, e2, e3, e4, e5, e6, e7, e8, e9⟩ := index_facts t
  show V c main_v13 (((cfg1.win 1).blk t).view.emb (ix2 p q)) = V c main_v13 (ix2 r q)
  refine congrArg _ (funext fun a => Fin.ext ?_)
  match a with
  | ⟨0, _⟩ => show win1_1.index t (0 : Fin 2) * 2000 + 1 * p.val = r.val; omega
  | ⟨1, _⟩ => show win1_1.index t (1 : Fin 2) * 128 + 1 * q.val = q.val; omega

/-- The column's block at point `t`, row `p`, is the column's row `2000 t + p`. -/
theorem deg_block (c : Dev nD) (t : Fin cfg1.N) (p : Fin 2000) (r : Fin 50000) (hr : r.val = t.val * 2000 + p.val) :
    iblk1 V c 2 t (ix2 p (0 : Fin 1)) = degArr V c (ix2 r (0 : Fin 1)) := by
  obtain ⟨e0, e1, e2, e3, e4, e5, e6, e7, e8, e9⟩ := index_facts t
  show V c main_v42 (((cfg1.win 2).blk t).view.emb (ix2 p (0 : Fin 1))) = V c main_v42 (ix2 r (0 : Fin 1))
  refine congrArg _ (funext fun a => Fin.ext ?_)
  match a with
  | ⟨0, _⟩ => show win1_2.index t (0 : Fin 2) * 2000 + 1 * p.val = r.val; omega
  | ⟨1, _⟩ => show win1_2.index t (1 : Fin 2) * 1 + 1 * 0 = 0; omega

/-- The bias row's block at any point is the whole row. -/
theorem bias_block (c : Dev nD) (t : Fin cfg1.N) (q : Fin 128) :
    iblk1 V c 3 t (ix2 (0 : Fin 1) q) = biasArr V c (ix2 (0 : Fin 1) q) := by
  obtain ⟨e0, e1, e2, e3, e4, e5, e6, e7, e8, e9⟩ := index_facts t
  show V c main_v43 (((cfg1.win 3).blk t).view.emb (ix2 (0 : Fin 1) q)) = V c main_v43 (ix2 (0 : Fin 1) q)
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- What point `t` writes back is block `t` of the combination of the four arrays. -/
theorem flushed_eq (c : Dev nD) (t : Fin cfg1.N) :
    (dat1 V c).flushed 4 t
      = ((cfg1.win 4).blk t).view.read (Elt F) (Cert.Gcn.combine (aggArr V c) (projArr V c) (degArr V c) (biasArr V c)) := by
  show (cfg1.win 4).cut (grid1.coords t) ((dat1 V c).after 4 t) = _
  rw [after1_4]
  unfold out1_4
  rw [View.canon_unit_zero origin]
  simp only [View.ld_unit_zero (S := S2000x128) origin, View.ld_unit_zero (S := S2000x1) origin,
    View.ld_unit_zero (S := S1x128) origin]
  obtain ⟨e0, e1, e2, e3, e4, e5, e6, e7, e8, e9⟩ := index_facts t
  funext j
  obtain ⟨p, q, rfl⟩ : ∃ (p : Fin 2000) (q : Fin 128), j = ix2 p q := ⟨j 0, j 1, eq_ix2 j⟩
  refine (body_apply _ _ _ _ p q).trans ?_
  have hp : p.val < 2000 := p.isLt
  have hN : cfg1.N = 25 := N_1
  have ht : t.val < 25 := hN ▸ t.isLt
  -- the entry of the result array this block entry is written to: row 2000 t + p, channel q
  have hemb : ((cfg1.win 4).blk t).view.emb (ix2 p q) = ix2 (⟨t.val * 2000 + p.val, by omega⟩ : Fin 50000) q := by
    refine funext fun a => Fin.ext ?_
    match a with
    | ⟨0, _⟩ => show win1_4.index t (0 : Fin 2) * 2000 + 1 * p.val = t.val * 2000 + p.val; omega
    | ⟨1, _⟩ => show win1_4.index t (1 : Fin 2) * 128 + 1 * q.val = q.val; omega
  show _ = Cert.Gcn.combine (aggArr V c) (projArr V c) (degArr V c) (biasArr V c) (((cfg1.win 4).blk t).view.emb (ix2 p q))
  rw [hemb]
  unfold Cert.Gcn.combine
  rw [agg_block V c t p q ⟨t.val * 2000 + p.val, by omega⟩ rfl, proj_block V c t p q ⟨t.val * 2000 + p.val, by omega⟩ rfl,
    deg_block V c t p ⟨t.val * 2000 + p.val, by omega⟩ rfl, bias_block V c t q]

/-- An index of the result array is in point `t`'s block iff each coordinate is in the block's range on its axis. -/
theorem mem_block (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v44).slice (win1_4.rect t)).set ↔ _
  rw [View.set_slice_whole, Rect.mem_set_unit]
  exact Iff.rfl

/-- Every row lies in one of the 25 row blocks: row `r` in block `r / 2000`. -/
theorem covered (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  obtain ⟨e0, e1, e2, e3, e4, e5, e6, e7, e8, e9⟩ := index_facts ⟨(i 0).val / 2000, by rw [hN]; omega⟩
  refine ⟨⟨(i 0).val / 2000, by rw [hN]; omega⟩, flush1_4 _, ?_⟩
  rw [mem_block]
  intro a
  match a with
  | ⟨0, _⟩ =>
    show win1_4.index ⟨(i 0).val / 2000, _⟩ (0 : Fin 2) * 2000 ≤ (i 0).val ∧ (i 0).val < win1_4.index ⟨(i 0).val / 2000, _⟩ (0 : Fin 2) * 2000 + 2000
    rw [e8]; show (i 0).val / 2000 * 2000 ≤ (i 0).val ∧ (i 0).val < (i 0).val / 2000 * 2000 + 2000; omega
  | ⟨1, _⟩ =>
    show win1_4.index ⟨(i 0).val / 2000, _⟩ (1 : Fin 2) * 128 ≤ (i 1).val ∧ (i 1).val < win1_4.index ⟨(i 0).val / 2000, _⟩ (1 : Fin 2) * 128 + 128
    rw [e9]; omega

/-- The result array after the region: the combination of the four arrays it was entered with. -/
theorem final (c : Dev nD) :
    (dat1 V c).arrAt 4 cfg1.N = Cert.Gcn.combine (V c main_v41) (V c main_v13) (V c main_v42) (V c main_v43) :=
  (dat1 V c).arrAt_eq_of_cover 4 (Cert.Gcn.combine (aggArr V c) (projArr V c) (degArr V c) (biasArr V c))
    (fun t _ => flushed_eq V c t) covered

end Cert.KernelIdeal.Region1

end
-- ==== Proof.Region4.lean ====
/-
  Region 4, the classifier `out = h · W + b` on operands padded to 128 columns, as ONE function of the arrays the region
  is entered with.

  The grid has 25 points; point `t` reads rows `2000 t … 2000 t + 1999` of the hidden array (all 128 columns), the whole
  128 × 128 weight matrix and the whole 1 × 128 bias row, and writes rows `2000 t … 2000 t + 1999` of the result. At the
  extended reals the two narrowings to bf16 are identities, the matrix unit's product into a zero accumulator is the
  plain sum over the contracted axis, the bias row spread over the 2000 rows reads its one row at the column, and the
  final addition is the sum of the two. So entry `(p, q)` of a block is `∑ k, h (p, k) · W (k, q) + b (0, q)` of the
  block's rows; a block's row `p` is row `2000 t + p` of the array, and the 25 row blocks tile the 50000 rows. Hence
  the result array, entry by entry, is `∑ k, h (r, k) · W (k, q) + b (0, q)`.
-/
import proofs.«169400_j7559142441491_1_alg».proof.Proof.Gen.KernelIdeal.Frame
import proofs.«169400_j7559142441491_1_alg».proof.Proof.Spec
import proofs.«169400_j7559142441491_1_alg».proof.Proof.BlockProduct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region4

open Cert.KernelIdeal Cert.KernelIdeal.Gen

/-! ## The body at an entry -/

/-- The body's value at entry `(p, q)`: the same-shape casts and the narrowings are identities at the extended reals, the
    product into a zero accumulator is the sum over the contracted axis, the spread bias row reads its entry `(0, q)`,
    and the addition is the sum of the two. -/
theorem body_apply (x0 : Vec Ideal S2000x128 .f32) (x1 : Vec Ideal S128x128 .f32) (x2 : Vec Ideal S1x128 .f32)
    (p : Fin 2000) (q : Fin 128) :
    (k4_pay1 (F := Ideal) x0 x1 x2) (ix2 p q)
      = (∑ k : Fin 128, x0 (ix2 p k) * x1 (ix2 k q)) + x2 (ix2 (0 : Fin 1) q) := by
  unfold k4_pay1
  try simp only [shapeCast_self]
  exact congrArg₂ (· + ·) (BlockProduct.product_apply x0 x1 p q) (broadcastTo_1b_ab_apply x2 _ p q)

/-! ## From the blocks to the arrays -/

variable (V : (c : Dev nD) → (b : Ref sig .tc) → Buf (Elt Ideal) ((c : Thread nD τ).loc b))

theorem origin : (![0, 0] : Fin 2 → Nat) = fun _ => 0 := funext fun a => by fin_cases a <;> rfl

/-- The hidden array as the region finds it, at its literal type. -/
abbrev hidArr (c : Dev nD) : FVec Ideal S50000x128 .f32 := V c main_v76
/-- The weight matrix as the region finds it, at its literal type. -/
abbrev matArr (c : Dev nD) : FVec Ideal S128x128 .f32 := V c main_v77
/-- The bias row as the region finds it, at its literal type. -/
abbrev rowArr (c : Dev nD) : FVec Ideal S1x128 .f32 := V c main_v79

/-- The printed index maps over the grid: the hidden array's and the result's row blocks are block `t`; the matrix's
    and the bias row's block is always block 0, the whole operand. -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The hidden block at point `t`, entry `(p, k)`, is the array's entry `(2000 t + p, k)`. -/
theorem hid_block (c : Dev nD) (t : Fin cfg4.N) (p : Fin 2000) (k : Fin 128) (r : Fin 50000)
    (hr : r.val = t.val * 2000 + p.val) :
    iblk4 V c 0 t (ix2 p k) = hidArr V c (ix2 r k) := by
  obtain ⟨e0, e1, e2, e3, e4, e5, e6, e7⟩ := index_facts t
  show V c main_v76 (((cfg4.win 0).blk t).view.emb (ix2 p k)) = V c main_v76 (ix2 r k)
  refine congrArg _ (funext fun a => Fin.ext ?_)
  match a with
  | ⟨0, _⟩ => show win4_0.index t (0 : Fin 2) * 2000 + 1 * p.val = r.val; omega
  | ⟨1, _⟩ => show win4_0.index t (1 : Fin 2) * 128 + 1 * k.val = k.val; omega

/-- The matrix block at any point is the whole matrix. -/
theorem mat_block (c : Dev nD) (t : Fin cfg4.N) (k q : Fin 128) :
    iblk4 V c 1 t (ix2 k q) = matArr V c (ix2 k q) := by
  obtain ⟨e0, e1, e2, e3, e4, e5, e6, e7⟩ := index_facts t
  show V c main_v77 (((cfg4.win 1).blk t).view.emb (ix2 k q)) = V c main_v77 (ix2 k q)
  refine congrArg _ (funext fun a => Fin.ext ?_)
  match a with
  | ⟨0, _⟩ => show win4_1.index t (0 : Fin 2) * 128 + 1 * k.val = k.val; omega
  | ⟨1, _⟩ => show win4_1.index t (1 : Fin 2) * 128 + 1 * q.val = q.val; omega

/-- The bias block at any point is the whole row. -/
theorem row_block (c : Dev nD) (t : Fin cfg4.N) (u : Fin 1) (q : Fin 128) :
    iblk4 V c 2 t (ix2 u q) = rowArr V c (ix2 u q) := by
  obtain ⟨e0, e1, e2, e3, e4, e5, e6, e7⟩ := index_facts t
  show V c main_v79 (((cfg4.win 2).blk t).view.emb (ix2 u q)) = V c main_v79 (ix2 u q)
  refine congrArg _ (funext fun a => Fin.ext ?_)
  match a with
  | ⟨0, _⟩ => show win4_2.index t (0 : Fin 2) * 1 + 1 * u.val = u.val; omega
  | ⟨1, _⟩ => show win4_2.index t (1 : Fin 2) * 128 + 1 * q.val = q.val; omega

/-- What point `t` writes back is block `t` of the classifier of the three arrays. -/
theorem flushed_eq (c : Dev nD) (t : Fin cfg4.N) :
    (dat4 V c).flushed 3 t
      = ((cfg4.win 3).blk t).view.read (Elt Ideal) (Cert.Gcn.classifyPadded (hidArr V c) (matArr V c) (rowArr V c)) := by
  show (cfg4.win 3).cut (grid4.coords t) ((dat4 V c).after 3 t) = _
  rw [after4_3]
  unfold out4_3
  rw [View.canon_unit_zero origin]
  simp only [View.ld_unit_zero (S := S2000x128) origin, View.ld_unit_zero (S := S128x128) origin,
    View.ld_unit_zero (S := S1x128) origin]
  obtain ⟨e0, e1, e2, e3, e4, e5, e6, e7⟩ := index_facts t
  funext j
  obtain ⟨p, q, rfl⟩ : ∃ (p : Fin 2000) (q : Fin 128), j = ix2 p q := ⟨j 0, j 1, eq_ix2 j⟩
  refine (body_apply _ _ _ p q).trans ?_
  have hp : p.val < 2000 := p.isLt
  show _ = Cert.Gcn.classifyPadded (hidArr V c) (matArr V c) (rowArr V c) (((cfg4.win 3).blk t).view.emb (ix2 p q))
  unfold Cert.Gcn.classifyPadded
  have hn : (Cert.Gcn.node (((cfg4.win 3).blk t).view.emb (ix2 p q))).val = t.val * 2000 + p.val := by
    show win4_3.index t (0 : Fin 2) * 2000 + 1 * p.val = _; omega
  have hc : Cert.Gcn.chan (((cfg4.win 3).blk t).view.emb (ix2 p q)) = q := Fin.ext (by
    show win4_3.index t (1 : Fin 2) * 128 + 1 * q.val = q.val; omega)
  rw [hc, row_block V c t 0 q]
  refine congrArg (· + rowArr V c (ix2 (0 : Fin 1) q)) (Finset.sum_congr rfl fun k _ => ?_)
  rw [hid_block V c t p k _ hn, mat_block V c t k q]

/-- An index of the result array is in point `t`'s block iff each coordinate is in the block's range on its axis. -/
theorem mem_block (t : Fin cfg4.N) (i : S50000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole main_v80).slice (win4_3.rect t)).set ↔ _
  rw [View.set_slice_whole, Rect.mem_set_unit]
  exact Iff.rfl

/-- Every row lies in one of the 25 row blocks: row `r` in block `r / 2000`. -/
theorem covered (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  have hN : cfg4.N = 25 := N_4
  obtain ⟨e0, e1, e2, e3, e4, e5, e6, e7⟩ := index_facts ⟨(i 0).val / 2000, by rw [hN]; omega⟩
  refine ⟨⟨(i 0).val / 2000, by rw [hN]; omega⟩, flush4_3 _, ?_⟩
  rw [mem_block]
  intro a
  match a with
  | ⟨0, _⟩ =>
    show win4_3.index ⟨(i 0).val / 2000, _⟩ (0 : Fin 2) * 2000 ≤ (i 0).val ∧ (i 0).val < win4_3.index ⟨(i 0).val / 2000, _⟩ (0 : Fin 2) * 2000 + 2000
    rw [e6]; show (i 0).val / 2000 * 2000 ≤ (i 0).val ∧ (i 0).val < (i 0).val / 2000 * 2000 + 2000; omega
  | ⟨1, _⟩ =>
    show win4_3.index ⟨(i 0).val / 2000, _⟩ (1 : Fin 2) * 128 ≤ (i 1).val ∧ (i 1).val < win4_3.index ⟨(i 0).val / 2000, _⟩ (1 : Fin 2) * 128 + 128
    rw [e7]; omega

/-- The result array after the region: the classifier of the three arrays it was entered with. -/
theorem final (c : Dev nD) :
    (dat4 V c).arrAt 3 cfg4.N = Cert.Gcn.classifyPadded (V c main_v76) (V c main_v77) (V c main_v79) :=
  (dat4 V c).arrAt_eq_of_cover 3 (Cert.Gcn.classifyPadded (hidArr V c) (matArr V c) (rowArr V c))
    (fun t _ => flushed_eq V c t) covered

end Cert.KernelIdeal.Region4

end
-- ==== Proof.CombineRead.lean ====
/-
  The "combine" step of the graph convolution, read on the reference's side: the whole-array function
  `Cert.Gcn.combine` of (the aggregated messages, the projection, the inverse degrees as a column, the bias as a row) IS
  the reference's rectified stage, once per layer.

  The reference computes the step one operation at a time: the inverse degrees `[50000]` are given a trailing unit axis and
  spread along the 128 channels, multiplied into the projection, added to the aggregated messages; the bias `[128]` is
  given a leading unit axis and spread along the 50000 nodes, added; the maximum with a spread zero is taken. Read at an
  entry `(r, q)` every one of these is pointwise or a layout step, so the stage's entry is
  `max (agg (r, q) + h (r, q) · d r + b q) 0`. On the other side the column is the inverse degrees reshaped to `[50000, 1]`
  and the row the bias reshaped to `[1, 128]`: the column at `(r, 0)` is `d r`, the row at `(0, q)` is `b q`. The two zeros
  are the same word. No law of the arithmetic is used, so the statements hold in any float instance.
-/
import proofs.«169400_j7559142441491_1_alg».proof.Proof.Gen.KernelIdeal
import proofs.«169400_j7559142441491_1_alg».proof.Proof.Gen.ReferenceIdeal.Read
import proofs.«169400_j7559142441491_1_alg».proof.Proof.Spec
import proofs.«169400_j7559142441491_1_alg».proof.Proof.LibKeepdims
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.KernelIdeal.CombineRead

open Cert.KernelIdeal Cert.KernelIdeal.Gen

variable {F : FTy → Type} [FloatOps F]

/-- Layer 1: the combination of the reference's aggregated messages, projection, reshaped inverse degrees and reshaped
    bias is the reference's rectified stage of that layer. -/
theorem layer1 (x0 : FVec F S50000x128 .f32) (x1 : IVec S2x800000 32) (x2 : FVec F S128x128 .f32) (x3 : FVec F S128 .f32) :
    Cert.Gcn.combine (Cert.ReferenceIdeal.Read.val_main_v39 (F := F) x0 x1 x2) (Cert.ReferenceIdeal.Read.val_main_v4 (F := F) x0 x2)
        (shapeCast S50000x1 (Cert.ReferenceIdeal.Read.val_main_v41 (F := F) x1) shapeCasts_S50000_S50000x1) (shapeCast S1x128 x3 shapeCasts_S128_S1x128)
      = Cert.ReferenceIdeal.Read.val_main_v49 (F := F) x0 x1 x2 x3 := by
  funext i
  obtain ⟨r, q, rfl⟩ : ∃ (r : Fin 50000) (q : Fin 128), i = ix2 r q := ⟨i 0, i 1, eq_ix2 i⟩
  -- the reference's stage at (r, q), operation by operation: maximum, sum, sum, product, the column spread and given its
  -- unit axis, the row spread and given its unit axis, the spread zero
  rw [Cert.ReferenceIdeal.Read.val_main_v49_apply, Cert.ReferenceIdeal.Read.val_main_v48_apply,
    Cert.ReferenceIdeal.Read.val_main_v45_apply, Cert.ReferenceIdeal.Read.val_main_v44_apply,
    Cert.ReferenceIdeal.Read.val_main_v43_apply, Cert.ReferenceIdeal.Read.val_main_v42_apply,
    Cert.ReferenceIdeal.Read.val_main_v47_apply, Cert.ReferenceIdeal.Read.val_main_v46_apply,
    Cert.ReferenceIdeal.Read.val_main_call0_v0_apply, Cert.ReferenceIdeal.Read.val_main_call0_cst_apply]
  -- on the other side the reshaped column at (r, 0) is the inverse degree of node r, the reshaped row at (0, q) the bias of
  -- channel q
  unfold Cert.Gcn.combine
  rw [Cert.Keepdims.shapeCast_a_a1_apply, shapeCast_a_1a_apply]
  -- the two sides name the same node and the same channel
  have hd : (ix1 (Cert.Gcn.node (ix2 r q)) : S50000.Idx)
      = Cert.ReferenceIdeal.Read.idx_main_v42 (Cert.ReferenceIdeal.Read.idx_main_v43 (ix2 r q)) :=
    funext fun a => match a with | ⟨0, _⟩ => rfl
  have hb : (ix1 (Cert.Gcn.chan (ix2 r q)) : S128.Idx)
      = Cert.ReferenceIdeal.Read.idx_main_v46 (Cert.ReferenceIdeal.Read.idx_main_v47 (ix2 r q)) :=
    funext fun a => match a with | ⟨0, _⟩ => rfl
  rw [hd, hb]

/-- Layer 2: the same, at the second layer's stages. -/
theorem layer2 (x0 : FVec F S50000x128 .f32) (x1 : IVec S2x800000 32) (x2 : FVec F S128x128 .f32) (x3 : FVec F S128 .f32) (x4 : FVec F S128x128 .f32) (x5 : FVec F S128 .f32) :
    Cert.Gcn.combine (Cert.ReferenceIdeal.Read.val_main_v85 (F := F) x0 x1 x2 x3 x4) (Cert.ReferenceIdeal.Read.val_main_v50 (F := F) x0 x1 x2 x3 x4)
        (shapeCast S50000x1 (Cert.ReferenceIdeal.Read.val_main_v87 (F := F) x1) shapeCasts_S50000_S50000x1) (shapeCast S1x128 x5 shapeCasts_S128_S1x128)
      = Cert.ReferenceIdeal.Read.val_main_v95 (F := F) x0 x1 x2 x3 x4 x5 := by
  funext i
  obtain ⟨r, q, rfl⟩ : ∃ (r : Fin 50000) (q : Fin 128), i = ix2 r q := ⟨i 0, i 1, eq_ix2 i⟩
  -- the reference's stage at (r, q), operation by operation: maximum, sum, sum, product, the column spread and given its
  -- unit axis, the row spread and given its unit axis, the spread zero
  rw [Cert.ReferenceIdeal.Read.val_main_v95_apply, Cert.ReferenceIdeal.Read.val_main_v94_apply,
    Cert.ReferenceIdeal.Read.val_main_v91_apply, Cert.ReferenceIdeal.Read.val_main_v90_apply,
    Cert.ReferenceIdeal.Read.val_main_v89_apply, Cert.ReferenceIdeal.Read.val_main_v88_apply,
    Cert.ReferenceIdeal.Read.val_main_v93_apply, Cert.ReferenceIdeal.Read.val_main_v92_apply,
    Cert.ReferenceIdeal.Read.val_main_call1_v0_apply, Cert.ReferenceIdeal.Read.val_main_call1_cst_apply]
  -- on the other side the reshaped column at (r, 0) is the inverse degree of node r, the reshaped row at (0, q) the bias of
  -- channel q
  unfold Cert.Gcn.combine
  rw [Cert.Keepdims.shapeCast_a_a1_apply, shapeCast_a_1a_apply]
  -- the two sides name the same node and the same channel
  have hd : (ix1 (Cert.Gcn.node (ix2 r q)) : S50000.Idx)
      = Cert.ReferenceIdeal.Read.idx_main_v88 (Cert.ReferenceIdeal.Read.idx_main_v89 (ix2 r q)) :=
    funext fun a => match a with | ⟨0, _⟩ => rfl
  have hb : (ix1 (Cert.Gcn.chan (ix2 r q)) : S128.Idx)
      = Cert.ReferenceIdeal.Read.idx_main_v92 (Cert.ReferenceIdeal.Read.idx_main_v93 (ix2 r q)) :=
    funext fun a => match a with | ⟨0, _⟩ => rfl
  rw [hd, hb]

end Cert.KernelIdeal.CombineRead

end
-- ==== Proof.Classify.lean ====
/-
  The classifier's padding never shows inside the first 10 columns.

  Before the last region the classifier's 128 × 10 weight matrix is padded on the right to 128 × 128 and its 10 biases
  are padded to 128 and viewed as a 1 × 128 row; after the region only columns 0 … 9 of the 50000 × 128 result are kept.
  A padded array read at an index inside the operand is the operand there, so for `q < 10` the padded matrix at `(k, q)`
  is the matrix at `(k, q)` and the padded row at `(0, q)` is the bias at `q`; a slice at offset 0 read at `(r, q)` is the
  array at `(r, q)`. Hence the kept part of the padded classifier, entry by entry, is `∑ k, h (r, k) · W (k, q) + b q` of the
  unpadded operands.
-/
import proofs.«169400_j7559142441491_1_alg».proof.Proof.Gen.KernelIdeal
import proofs.«169400_j7559142441491_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

open Idealize.ShloMosaic Idealize.ShloMosaic.TcCoe Idealize.ShloMosaic.ValueIdx

namespace Cert.KernelIdeal.Classify

open Cert.KernelIdeal Cert.KernelIdeal.Gen

/-- The classifier's weights padded on the right from 10 to 128 columns (the padding value is the host's converted
    integer zero; it is never read below). -/
def paddedW (x6 : FVec Ideal S128x10 .f32) : FVec Ideal S128x128 .f32 :=
  pad S128x128 ![0, 0] ![0, 118] ![0, 0] x6 (sitofp .f32 (constantI S_ 32 0#32)) pads_S128x10_S128x128_000_01180 h_S_

/-- The classifier's bias padded from 10 to 128 entries and viewed as a [1,128] row. -/
def paddedB (x7 : FVec Ideal S10 .f32) : FVec Ideal S1x128 .f32 :=
  shapeCast S1x128 (pad S128 ![0] ![118] ![0] x7 (sitofp .f32 (constantI S_ 32 0#32)) pads_S10_S128_01180 h_S_) shapeCasts_S128_S1x128

/-- The padded matrix at `(k, q')` with `q'` one of the first 10 columns is the matrix at `(k, q')`: no low padding and no
    interior padding on either axis, so the index is inside the operand. -/
theorem paddedW_apply (x6 : FVec Ideal S128x10 .f32) (k : Fin 128) (q : Fin 10) (q' : Fin 128) (hq : q'.val = q.val) :
    paddedW x6 (ix2 k q') = x6 (ix2 k q) := by
  unfold paddedW
  refine pad_apply_of_inside _ _ _ x6 _ _ _ (ix2 k q') (ix2 k q) fun a => ?_
  match a with
  | ⟨0, _⟩ => show k.val = 0 + k.val * (0 + 1); omega
  | ⟨1, _⟩ => show q'.val = 0 + q.val * (0 + 1); omega

/-- The padded bias row at `(0, q')` with `q'` one of the first 10 columns is the bias at `q'`: the row's entry `(u, i)` is
    the padded vector's entry `i`, which is inside the operand. -/
theorem paddedB_apply (x7 : FVec Ideal S10 .f32) (u : Fin 1) (q : Fin 10) (q' : Fin 128) (hq : q'.val = q.val) :
    paddedB x7 (ix2 u q') = x7 (ix1 q) := by
  unfold paddedB
  refine (shapeCast_a_1a_apply _ _ u q').trans ?_
  refine pad_apply_of_inside _ _ _ x7 _ _ _ (ix1 q') (ix1 q) fun a => ?_
  match a with
  | ⟨0, _⟩ => show q'.val = 0 + q.val * (0 + 1); omega

/-- The first 10 columns of the padded classifier, entry by entry: the slice at offset 0 reads the array at the same
    row and column; there the padded matrix and the padded bias row read the unpadded operands. -/
theorem sliced_apply (h : FVec Ideal S50000x128 .f32) (x6 : FVec Ideal S128x10 .f32) (x7 : FVec Ideal S10 .f32) (r : Fin 50000) (q : Fin 10) :
    extractStridedSlice S50000x10 ![0, 0] (Cert.Gcn.classifyPadded h (paddedW x6) (paddedB x7)) slices_S50000x128_S50000x10_0_0 (ix2 r q)
      = (∑ k : Fin 128, h (ix2 r k) * x6 (ix2 k q)) + x7 (ix1 q) := by
  have hq : q.val < 128 := by have := q.isLt; omega
  refine (extractStridedSlice_apply ![0, 0] _ slices_S50000x128_S50000x10_0_0 (ix2 r q) (ix2 r (⟨q.val, hq⟩ : Fin 128))
    fun a => ?_).trans ?_
  · match a with
    | ⟨0, _⟩ => show r.val = 0 + r.val; omega
    | ⟨1, _⟩ => show q.val = 0 + q.val; omega
  show (∑ k : Fin 128, h (ix2 r k) * paddedW x6 (ix2 k (⟨q.val, hq⟩ : Fin 128))) + paddedB x7 (ix2 (0 : Fin 1) (⟨q.val, hq⟩ : Fin 128)) = _
  rw [paddedB_apply x7 0 q _ rfl]
  refine congrArg (· + x7 (ix1 q)) (Finset.sum_congr rfl fun k _ => ?_)
  rw [paddedW_apply x6 k q _ rfl]

end Cert.KernelIdeal.Classify

end
-- ==== Proof.KernelValue.lean ====
/-
  The idealized kernel's result, read back through the fold of @main's segments to the argument arrays, lands on the
  reference's own stages (the generated read-back of the reference names each of its operations' values `val_main_vN`
  as a function of the arguments):

  • the first stretch of host operations computes the edges' sources and targets, the degrees (one plus the number of
    incoming edges), their inverse square roots and their inverses exactly as the reference does: the same operations
    of the same argument;
  • each dense projection region leaves `∑ k, x (r, k) · w (k, q)`, which is what the reference's `dot_general` reads at
    an entry;
  • each message stretch (gather the projection's rows at the sources, scale by the edge weights, sum into the targets)
    is the reference's chain of the same host operations applied to equal operands;
  • each combine region leaves `max (agg + h · d + b, 0)`, the reference's add, add and rectifier read at an entry;
  • the classifier region on the padded operands, cut back to 10 columns, is the reference's `h · Wl + bl`.
-/
import proofs.«169400_j7559142441491_1_alg».proof.Proof.Gen.KernelIdeal.Frame
import proofs.«169400_j7559142441491_1_alg».proof.Proof.Gen.ReferenceIdeal.Read
import proofs.«169400_j7559142441491_1_alg».proof.Proof.Spec
import proofs.«169400_j7559142441491_1_alg».proof.Proof.Fold
import proofs.«169400_j7559142441491_1_alg».proof.Proof.Region0
import proofs.«169400_j7559142441491_1_alg».proof.Proof.Region1
import proofs.«169400_j7559142441491_1_alg».proof.Proof.Region2
import proofs.«169400_j7559142441491_1_alg».proof.Proof.Region3
import proofs.«169400_j7559142441491_1_alg».proof.Proof.Region4
import proofs.«169400_j7559142441491_1_alg».proof.Proof.CombineRead
import proofs.«169400_j7559142441491_1_alg».proof.Proof.Classify
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Value

open Cert.KernelIdeal Cert.KernelIdeal.Gen Cert.ReferenceIdeal.Read

variable (m : (ℓ : Loc nD τ sig) → Buf (Elt Ideal) ℓ) (ρ : Dev nD → PrngReg)

/-! ## The first stretch: edge lists and degree terms -/

/-- The edges' sources after the first stretch: row 0 of the edge array, flattened. -/
theorem src1 (c : Dev nD) : W1 m ρ c (Proc.devRef .tc main_v1) = val_main_v1 (F := Ideal) (m ((c : Thread nD τ).loc main_arg1)) := by
  show StableHlo.after hostOps0 _ _ = _
  after_results
  rfl

/-- The edges' targets after the first stretch: row 1 of the edge array, flattened. -/
theorem dst1 (c : Dev nD) : W1 m ρ c (Proc.devRef .tc main_v3) = val_main_v3 (F := Ideal) (m ((c : Thread nD τ).loc main_arg1)) := by
  show StableHlo.after hostOps0 _ _ = _
  after_results
  rfl

/-- The inverse square roots of the degrees: the reference's own scatter-add of ones, plus one, under `rsqrt`. -/
theorem dinv1 (c : Dev nD) : W1 m ρ c (Proc.devRef .tc main_v10) = val_main_v11 (F := Ideal) (m ((c : Thread nD τ).loc main_arg1)) := by
  show StableHlo.after hostOps0 _ _ = _
  after_results
  rfl

/-- The inverse degrees: one over the same degree vector. -/
theorem invdeg1 (c : Dev nD) : W1 m ρ c (Proc.devRef .tc main_v12) = val_main_v41 (F := Ideal) (m ((c : Thread nD τ).loc main_arg1)) := by
  show StableHlo.after hostOps0 _ _ = _
  after_results
  rfl

/-! ## The first layer -/

/-- The dense projection, entry by entry, is the reference's `dot_general` read at an entry. -/
theorem product_eq_v4 (x0 : FVec Ideal S50000x128 .f32) (x2 : FVec Ideal S128x128 .f32) :
    Cert.Gcn.product x0 x2 = val_main_v4 (F := Ideal) x0 x2 := by
  funext i
  rw [val_main_v4_apply]
  unfold Cert.Gcn.product
  refine Finset.sum_congr rfl fun k _ => ?_
  have el : (ix2 (Cert.Gcn.node i) k : S50000x128.Idx) = lidx_main_v4 i k := funext fun a => by
    match a with
    | ⟨0, _⟩ => rfl
    | ⟨1, _⟩ => rfl
  have er : (ix2 k (Cert.Gcn.chan i) : S128x128.Idx) = ridx_main_v4 i k := funext fun a => by
    match a with
    | ⟨0, _⟩ => rfl
    | ⟨1, _⟩ => rfl
  rw [el, er]

/-- Region 0 leaves the reference's first projection in its result array. -/
theorem proj1 (c : Dev nD) : W2 m ρ c (Proc.devRef .tc main_v13) = val_main_v4 (F := Ideal) (m ((c : Thread nD τ).loc main_arg0)) (m ((c : Thread nD τ).loc main_arg2)) := by
  refine ((W2_arr m ρ c 2).trans (Region0.final (V1 m ρ) c)).trans ?_
  show Cert.Gcn.product (W1 m ρ c (Proc.devRef .tc main_arg0)) (W1 m ρ c (Proc.devRef .tc main_arg2)) = _
  rw [Fold.arg0_at1, Fold.arg2_at1]
  exact product_eq_v4 _ _

/-- The first layer's aggregated messages: the reference's gather, scaling and scatter-add, of equal operands. -/
theorem agg1 (c : Dev nD) : W3 m ρ c (Proc.devRef .tc main_v41) = val_main_v39 (F := Ideal) (m ((c : Thread nD τ).loc main_arg0)) (m ((c : Thread nD τ).loc main_arg1)) (m ((c : Thread nD τ).loc main_arg2)) := by
  show StableHlo.after hostOps1 (W2 m ρ c) _ = _
  after_results_simp
  rw [proj1, Fold.src_at2, src1, Fold.dst_at2, dst1, Fold.dinv_at2, dinv1]
  rfl

/-- The inverse degrees as a column, as the first combine reads them. -/
theorem col1 (c : Dev nD) : W3 m ρ c (Proc.devRef .tc main_v42) = shapeCast S50000x1 (val_main_v41 (F := Ideal) (m ((c : Thread nD τ).loc main_arg1))) shapeCasts_S50000_S50000x1 := by
  show StableHlo.after hostOps1 (W2 m ρ c) _ = _
  after_results
  rw [Fold.invdeg_at2, invdeg1]
  rfl

/-- The first bias as a row, as the first combine reads it. -/
theorem row1 (c : Dev nD) : W3 m ρ c (Proc.devRef .tc main_v43) = shapeCast S1x128 (m ((c : Thread nD τ).loc main_arg3)) shapeCasts_S128_S1x128 := by
  show StableHlo.after hostOps1 (W2 m ρ c) _ = _
  after_results
  rw [Fold.arg3_at2]
  rfl

/-- Region 1 leaves the reference's first rectified layer. -/
theorem layer1 (c : Dev nD) : W4 m ρ c (Proc.devRef .tc main_v44) = val_main_v49 (F := Ideal) (m ((c : Thread nD τ).loc main_arg0)) (m ((c : Thread nD τ).loc main_arg1)) (m ((c : Thread nD τ).loc main_arg2)) (m ((c : Thread nD τ).loc main_arg3)) := by
  refine ((W4_arr m ρ c 4).trans (Region1.final (V3 m ρ) c)).trans ?_
  dsimp only [V3]
  rw [agg1, Fold.proj1_at3, proj1, col1, row1]
  exact CombineRead.layer1 _ _ _ _

/-! ## The second layer -/

/-- Region 2 leaves the reference's second projection: the same sum over the contracted axis, of the first layer's
    output and the second weights. -/
theorem proj2 (c : Dev nD) : W5 m ρ c (Proc.devRef .tc main_v45) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine ((W5_arr m ρ c 2).trans (Region2.final (V4 m ρ) c)).trans ?_
  show Cert.Gcn.product (W4 m ρ c (Proc.devRef .tc main_v44)) (W4 m ρ c (Proc.devRef .tc main_arg4)) = _
  rw [layer1, Fold.arg4_at4]
  funext i
  rw [val_main_v50_apply]
  unfold Cert.Gcn.product
  refine Finset.sum_congr rfl fun k _ => ?_
  have el : (ix2 (Cert.Gcn.node i) k : S50000x128.Idx) = lidx_main_v50 i k := funext fun a => by
    match a with
    | ⟨0, _⟩ => rfl
    | ⟨1, _⟩ => rfl
  have er : (ix2 k (Cert.Gcn.chan i) : S128x128.Idx) = ridx_main_v50 i k := funext fun a => by
    match a with
    | ⟨0, _⟩ => rfl
    | ⟨1, _⟩ => rfl
  rw [el, er]

/-- The second layer's aggregated messages: again the reference's chain of host operations, of equal operands (the
    reference recomputes the degree terms for this layer; they are the same operations of the same edge array). -/
theorem agg2 (c : Dev nD) : W6 m ρ c (Proc.devRef .tc main_v73) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) _ = _
  after_results_simp
  rw [proj2, Fold.src_at5, src1, Fold.dst_at5, dst1, Fold.dinv_at5, dinv1]
  rfl

/-- The inverse degrees as a column, as the second combine reads them. -/
theorem col2 (c : Dev nD) : W6 m ρ c (Proc.devRef .tc main_v74) = shapeCast S50000x1 (val_main_v87 (F := Ideal) (m ((c : Thread nD τ).loc main_arg1))) shapeCasts_S50000_S50000x1 := by
  show StableHlo.after hostOps3 (W5 m ρ c) _ = _
  after_results_simp
  rw [Fold.invdeg_at5, invdeg1]
  rfl

/-- The second bias as a row, as the second combine reads it. -/
theorem row2 (c : Dev nD) : W6 m ρ c (Proc.devRef .tc main_v75) = shapeCast S1x128 (m ((c : Thread nD τ).loc main_arg5)) shapeCasts_S128_S1x128 := by
  show StableHlo.after hostOps3 (W5 m ρ c) _ = _
  after_results_simp
  rw [Fold.arg5_at5]
  rfl

/-- Region 3 leaves the reference's second rectified layer. -/
theorem layer2 (c : Dev nD) : W7 m ρ c (Proc.devRef .tc main_v76) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((W7_arr m ρ c 4).trans (Region3.final (V6 m ρ) c)).trans ?_
  dsimp only [V6]
  rw [agg2, Fold.proj2_at6, proj2, col2, row2]
  exact CombineRead.layer2 _ _ _ _ _ _

/-! ## The classifier -/

/-- The second layer's output, untouched by the padding stretches, as the classifier reads it. -/
theorem hidden12 (c : Dev nD) : W12 m ρ c (Proc.devRef .tc main_v76) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [Fold.hidden_at12, layer2]

/-- The padded classifier weights. -/
theorem wpad12 (c : Dev nD) : W12 m ρ c (Proc.devRef .tc main_v77) = Classify.paddedW (m ((c : Thread nD τ).loc main_arg6)) := by
  show StableHlo.after hostOps4_4 (W11 m ρ c) _ = _
  after_results
  rw [Fold.arg6_at7]
  rfl

/-- The padded classifier bias as a row. -/
theorem bpad12 (c : Dev nD) : W12 m ρ c (Proc.devRef .tc main_v79) = Classify.paddedB (m ((c : Thread nD τ).loc main_arg7)) := by
  show StableHlo.after hostOps4_4 (W11 m ρ c) _ = _
  after_results
  rw [Fold.arg7_at7]
  rfl

/-- Region 4 leaves the classifier on the padded operands. -/
theorem logits128 (c : Dev nD) : W13 m ρ c (Proc.devRef .tc main_v80)
    = Cert.Gcn.classifyPadded (val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Classify.paddedW (m ((c : Thread nD τ).loc main_arg6))) (Classify.paddedB (m ((c : Thread nD τ).loc main_arg7))) := by
  refine ((W13_arr m ρ c 3).trans (Region4.final (V12 m ρ) c)).trans ?_
  show Cert.Gcn.classifyPadded (W12 m ρ c (Proc.devRef .tc main_v76)) (W12 m ρ c (Proc.devRef .tc main_v77)) (W12 m ρ c (Proc.devRef .tc main_v79)) = _
  rw [hidden12, wpad12, bpad12]

/-- THE RESULT: the kernel's result array, at the end of the fold, is the reference's result stage of the same
    arguments — its first 10 classifier columns never see the padding. -/
theorem result (c : Dev nD) : W14 m ρ c (Proc.devRef .tc main_v81) = val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps5 (W13 m ρ c) _ = _
  after_results
  rw [logits128]
  funext i
  obtain ⟨r, q, rfl⟩ : ∃ (r : Fin 50000) (q : Fin 10), i = ix2 r q := ⟨i 0, i 1, eq_ix2 i⟩
  refine (Classify.sliced_apply _ _ _ r q).trans ?_
  rw [val_main_v99_apply, val_main_v96_apply, val_main_v98_apply, val_main_v97_apply]
  have hl : ∀ k : Fin 128, (ix2 r k : S50000x128.Idx) = lidx_main_v96 (ix2 r q) k := fun k => funext fun a => by
    match a with
    | ⟨0, _⟩ => rfl
    | ⟨1, _⟩ => rfl
  have hr : ∀ k : Fin 128, (ix2 k q : S128x10.Idx) = ridx_main_v96 (ix2 r q) k := fun k => funext fun a => by
    match a with
    | ⟨0, _⟩ => rfl
    | ⟨1, _⟩ => rfl
  have hb : (ix1 q : S10.Idx) = idx_main_v97 (idx_main_v98 (ix2 r q)) := funext fun a => by
    match a with
    | ⟨0, _⟩ => rfl
  simp only [hl, hr, hb]
  rfl

end Cert.KernelIdeal.Value

end
-- ==== Proof.lean ====
/-
  A two-layer graph convolution with a linear classifier: the Pallas program against its jnp reference, equal as
  functions of the arguments over the extended reals.

  Both programs compute, with `deg = 1 + (number of edges into a node)`,
      layer (x, W, b) = max (A · (x W) + (x W) / deg + b, 0),   out = layer (layer (x, W1, b1), W2, b2) · Wl + bl,
  where `A · h` gathers the rows of `h` at the edges' sources, scales each by `deg^(-1/2)` of its two end points and
  sums them into the edges' targets. The reference does everything on the host. The kernel does the two projections
  `x W`, the two combine steps `agg + h / deg + b` with the rectifier, and the classifier in five pipelined regions of
  25 row blocks each, and the gather / scale / scatter-add between them on the host with the reference's own
  operations; it computes the degree terms once where the reference computes them per layer, narrows the matrix
  products' operands to bf16 (the identity at the extended reals), and pads the classifier to 128 columns, of which
  it keeps the first 10. No law of arithmetic beyond reading each operation at an entry is needed: the two sides are
  the same sums and the same pointwise expressions, so finiteness of the inputs is never used.

  The frames of the two kernel programs are the generated frame certificates; the reference's frame is its generated
  run with the result dropped; the idealization rewrote nothing. For the value claim the kernel's run is stated with
  its result named (the last boundary of the segments' fold), the fold is read back to the arguments region by region
  and stretch by stretch, landing on the reference's result stage, and the reference's run states that stage.
-/
import proofs.«169400_j7559142441491_1_alg».proof.Defs
import proofs.«169400_j7559142441491_1_alg».proof.Proof.Gen.Kernel
import proofs.«169400_j7559142441491_1_alg».proof.Proof.Gen.Kernel.Skeleton
import proofs.«169400_j7559142441491_1_alg».proof.Proof.Gen.Kernel.Launch
import proofs.«169400_j7559142441491_1_alg».proof.Proof.Gen.Kernel.Points
import proofs.«169400_j7559142441491_1_alg».proof.Proof.Gen.Kernel.Frame
import proofs.«169400_j7559142441491_1_alg».proof.Proof.Gen.KernelIdeal
import proofs.«169400_j7559142441491_1_alg».proof.Proof.Gen.KernelIdeal.Skeleton
import proofs.«169400_j7559142441491_1_alg».proof.Proof.Gen.KernelIdeal.Launch
import proofs.«169400_j7559142441491_1_alg».proof.Proof.Gen.KernelIdeal.Points
import proofs.«169400_j7559142441491_1_alg».proof.Proof.Gen.KernelIdeal.Frame
import proofs.«169400_j7559142441491_1_alg».proof.Proof.Gen.ReferenceIdeal
import proofs.«169400_j7559142441491_1_alg».proof.Proof.Gen.ReferenceIdeal.Run
import proofs.«169400_j7559142441491_1_alg».proof.Proof.Gen.ReferenceIdeal.Read
import proofs.«169400_j7559142441491_1_alg».proof.Proof.Gen.Pre_finite_inputs
import proofs.«169400_j7559142441491_1_alg».proof.Proof.KernelRun
import proofs.«169400_j7559142441491_1_alg».proof.Proof.KernelValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a host program: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's result stage of those arguments. -/
theorem algebraic : Cert.algebraic_KernelIdeal_ReferenceIdeal := by
  intro m ρ m' ρ' _ hagree
  refine ⟨fun c => Cert.ReferenceIdeal.Read.val_main_v99 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Value.result m ρ c), (h c).2⟩)
      (Cert.KernelIdeal.Named.run_named m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v99_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
